-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x32 .f32) (main_arg6 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x64 : Shape := ⟨2, ![1700000, 64]⟩
abbrev S1x64 : Shape := ⟨2, ![1, 64]⟩
abbrev S10000x64 : Shape := ⟨2, ![10000, 64]⟩
abbrev S10000x1 : Shape := ⟨2, ![10000, 1]⟩
abbrev S1x32 : Shape := ⟨2, ![1, 32]⟩
abbrev S100000x32 : Shape := ⟨2, ![100000, 32]⟩
abbrev S10000x32 : Shape := ⟨2, ![10000, 32]⟩

abbrev nBuf : Space → Nat
  | .hbm => 72
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S100000, .i32⟩
  | .hbm, ⟨8, _⟩ => ⟨S1700000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000x64, .f32⟩
  | .hbm, ⟨46, _⟩ => ⟨S_, .f32⟩
  | .hbm, ⟨47, _⟩ => ⟨S100000x64, .f32⟩
  | .hbm, ⟨48, _⟩ => ⟨S1700000x1, .i32⟩
  | .hbm, ⟨49, _⟩ => ⟨S100000x64, .f32⟩
  | .hbm, ⟨50, _⟩ => ⟨S100000x1, .f32⟩
  | .hbm, ⟨51, _⟩ => ⟨S1x64, .f32⟩
  | .hbm, ⟨52, _⟩ => ⟨S100000x64, .f32⟩
  | .hbm, ⟨53, _⟩ => ⟨S100000x1, .f32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S100000x1, .f32⟩
  | .hbm, ⟨70, _⟩ => ⟨S1x32, .f32⟩
  | .hbm, ⟨71, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x1, .f32⟩
  | .local _ .vmem, ⟨11, _⟩ => ⟨S10000x1, .f32⟩
  | .local _ .vmem, ⟨12, _⟩ => ⟨S64x32, .f32⟩
  | .local _ .vmem, ⟨13, _⟩ => ⟨S1x32, .f32⟩
  | .local _ .vmem, ⟨14, _⟩ => ⟨S10000x32, .f32⟩
  | .local _ .vmem, ⟨15, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v13 : Ref sig .tc := ⟨.hbm, 30, rfl⟩
abbrev main_cst_5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  scatter_S100000_S1700000x1_S1700000_n_0_0_1_wf : ScatterDims.WF S100000 S1700000x1 S1700000 [] [0] [0] 1
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x32.size a ≤ S100000x32.size a
  hwx1_4 : ∀ i : grid1.Coords, EltTy.bits .f32 = 32 ∨ (Rect.block (s := S100000x32) S10000x32.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_v28) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S10000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x64 : Shape := ⟨2, ![1700000, 64]⟩
abbrev S1x64 : Shape := ⟨2, ![1, 64]⟩
abbrev S100000x32 : Shape := ⟨2, ![100000, 32]⟩
abbrev S1x32 : Shape := ⟨2, ![1, 32]⟩

abbrev nBuf : Space → Nat
  | .hbm => 83
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S100000, .i32⟩
  | .hbm, ⟨8, _⟩ => ⟨S1700000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000x64, .f32⟩
  | .hbm, ⟨46, _⟩ => ⟨S_, .f32⟩
  | .hbm, ⟨47, _⟩ => ⟨S100000x64, .f32⟩
  | .hbm, ⟨48, _⟩ => ⟨S1700000x1, .i32⟩
  | .hbm, ⟨49, _⟩ => ⟨S100000x64, .f32⟩
  | .hbm, ⟨50, _⟩ => ⟨S100000x1, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S_, .f32⟩
  | .hbm, ⟨58, _⟩ => ⟨S100000x64, .f32⟩
  | .hbm, ⟨59, _⟩ => ⟨S100000x64, .f32⟩
  | .hbm, ⟨60, _⟩ => ⟨S100000x1, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x64, .f32⟩
  | .hbm, ⟨72, _⟩ => ⟨S_, .f32⟩
  | .hbm, ⟨73, _⟩ => ⟨S100000x64, .f32⟩
  | .hbm, ⟨74, _⟩ => ⟨S1700000x1, .i32⟩
  | .hbm, ⟨75, _⟩ => ⟨S100000x64, .f32⟩
  | .hbm, ⟨76, _⟩ => ⟨S100000x1, .f32⟩
  | .hbm, ⟨77, _⟩ => ⟨S100000x64, .f32⟩
  | .hbm, ⟨78, _⟩ => ⟨S100000x64, .f32⟩
  | .hbm, ⟨79, _⟩ => ⟨S100000x32, .f32⟩
  | .hbm, ⟨80, _⟩ => ⟨S1x32, .f32⟩
  | .hbm, ⟨81, _⟩ => ⟨S100000x32, .f32⟩
  | .hbm, ⟨82, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v13 : Ref sig .tc := ⟨.hbm, 30, rfl⟩
abbrev main_cst_5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call2_cst : Ref sig .tc := ⟨.hbm, 57, rfl⟩
abbrev main_call2_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.HostTerms.lean ====
/-
  The host operations both programs share, named once.

  Outside the dense stage the kernel's program and the reference apply the SAME operations to the same arrays:
  * `withLoops e`: the 1600000 edge endpoints `e` followed by the node numbers 0 … 99999 (one self-loop per node);
  * `degFactor e`: per node, the number of listed endpoints equal to it (`degree`: a scatter-add of ones into zeros),
    raised to at least one (`atLeastOne`) and then to the power −1/2 (`invSqrt`);
  * `aggregateOf h ns s d`: the rows of `h`, each scaled by its node's factor `ns`, gathered at the source
    endpoints `s` (a negative endpoint read from the end) and summed into the rows named by the destination
    endpoints `d`; `aggregate h src dst` is that with the factor and the endpoints computed from the edge lists.
  The scatter-add and the gather are never opened: the two programs are compared with these as the same functions
  of equal arguments.
-/
import proofs.«160539_j33784212750626_1_alg».proof.Proof.Gen.KernelIdeal

noncomputable section

namespace Cert.Gcn

open Idealize.ShloMosaic Cert.KernelIdeal Cert.KernelIdeal.Facts₀

variable {F : FTy → Type} [FloatOps F]

/-- The edge endpoints with one self-loop per node appended. -/
def withLoops (e : (⟨S1600000, .i32⟩ : BufTy).Contents (Elt F)) : (⟨S1700000, .i32⟩ : BufTy).Contents (Elt F) :=
  concatenate S1700000 0 [⟨S1600000, e⟩, ⟨S100000, (iotaInDim S100000 32 0)⟩] concatenates_S1600000_S100000_S1700000_d0

/-- A node's degree: its count among the endpoints (self-loop included), a one added into a zero per occurrence. -/
def degree (e : (⟨S1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (withLoops e))
    (broadcastInDim S1700000 ![] bcast_S_S1700000 (constant S_ .f32 0x3F800000#32))

/-- A degree vector raised to at least one (the clip against the scalar `one` broadcast over the nodes). -/
def atLeastOne (one : (⟨S_, .f32⟩ : BufTy).Contents (Elt F)) (deg : (⟨S100000, .f32⟩ : BufTy).Contents (Elt F)) : (⟨S100000, .f32⟩ : BufTy).Contents (Elt F) :=
  maximumf (broadcastInDim S100000 ![] bcast_S_S100000 (id one)) deg

/-- A clipped degree vector to the power −1/2. -/
def invSqrt (v : (⟨S100000, .f32⟩ : BufTy).Contents (Elt F)) : (⟨S100000, .f32⟩ : BufTy).Contents (Elt F) :=
  Host.powf v (broadcastInDim S100000 ![] bcast_S_S100000 (constant S_ .f32 0xBF000000#32))

/-- A node's factor: its degree, at least one, to the power −1/2. -/
def degFactor (e : (⟨S1600000, .i32⟩ : BufTy).Contents (Elt F)) : (⟨S100000, .f32⟩ : BufTy).Contents (Elt F) :=
  invSqrt (atLeastOne (constant S_ .f32 0x3F800000#32) (degree e))

/-- One layer's aggregate from a factor vector and the two endpoint lists as given. -/
def aggregateOf (h : (⟨S100000x64, .f32⟩ : BufTy).Contents (Elt F)) (ns : (⟨S100000, .f32⟩ : BufTy).Contents (Elt F))
    (s d : (⟨S1700000, .i32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (Host.gather gather_S100000x64_S1700000x1_S1700000x64_1_0_n_n_0_1_164
      (mulf h (broadcastInDim S100000x64 ![0, 1] bcast_S100000x1_S100000x64_0_1 (broadcastInDim S100000x1 ![0] bcast_S100000_S100000x1_0 ns)))
      (broadcastInDim S1700000x1 ![0] bcast_S1700000_S1700000x1_0
        (select (cmpi .slt s (broadcastInDim S1700000 ![] bcast_S_S1700000 (constantI S_ 32 0#32)))
          (addi s (broadcastInDim S1700000 ![] bcast_S_S1700000 (constantI S_ 32 100000#32))) s)))

/-- One layer's aggregate of `h` over the graph given by its edge lists. -/
def aggregate (h : (⟨S100000x64, .f32⟩ : BufTy).Contents (Elt F)) (src dst : (⟨S1600000, .i32⟩ : BufTy).Contents (Elt F)) : (⟨S100000x64, .f32⟩ : BufTy).Contents (Elt F) :=
  aggregateOf h (degFactor src) (withLoops src) (withLoops dst)

/-- A per-node vector as the N × 1 column the kernels read. -/
def columnOf (v : (⟨S100000, .f32⟩ : BufTy).Contents (Elt F)) : (⟨S100000x1, .f32⟩ : BufTy).Contents (Elt F) :=
  shapeCast S100000x1 v shapeCasts_S100000_S100000x1

/-- The destination-side factors as that column. -/
def factorColumn (dst : (⟨S1600000, .i32⟩ : BufTy).Contents (Elt F)) : (⟨S100000x1, .f32⟩ : BufTy).Contents (Elt F) :=
  columnOf (degFactor dst)

/-- The hidden layer's bias as the 1 × 64 row its kernel reads. -/
def hiddenBias (b : (⟨S64, .f32⟩ : BufTy).Contents (Elt F)) : (⟨S1x64, .f32⟩ : BufTy).Contents (Elt F) :=
  shapeCast S1x64 b shapeCasts_S64_S1x64

/-- The output layer's bias as the 1 × 32 row its kernel reads. -/
def outBias (b : (⟨S32, .f32⟩ : BufTy).Contents (Elt F)) : (⟨S1x32, .f32⟩ : BufTy).Contents (Elt F) :=
  shapeCast S1x32 b shapeCasts_S32_S1x32

end Cert.Gcn

end
-- ==== Proof.KernelEntry0.lean ====
/-
  What the host operations before the first kernel leave in the buffers, boundary by boundary.

  The program runs five stretches of host operations before its first kernel: the self-looped endpoint lists and
  the two degree vectors; the clip of the source degrees; their power −1/2; the clip of the destination degrees;
  then their power, the scaling of the features, the gather, the scatter-add and the two re-layouts the kernel
  reads. Each lemma reads ONE buffer at ONE boundary from the buffers of the boundary before it (whose contents are
  treated as given, so the walk never leaves its stretch); the buffers a stretch does not write are carried along.
  At the kernel's entry the buffers it reads hold the shared host functions of the program's arguments.
  Nothing here depends on what a float is: every lemma holds at any float instance.
-/
import proofs.«160539_j33784212750626_1_alg».proof.Proof.Gen.KernelIdeal.Frame
import proofs.«160539_j33784212750626_1_alg».proof.Proof.HostTerms

set_option maxRecDepth 16384
-- walking a stretch of twenty operations back, one rewrite per operation and buffer, needs more than the default budget
set_option maxHeartbeats 4000000

noncomputable section

namespace Cert.Gcn.Entry0

open Idealize.ShloMosaic Idealize.ShloMosaic.TcCoe Idealize.ShloMosaic.StableHlo Idealize.SL.Sem
open Cert.KernelIdeal Cert.KernelIdeal.Gen

variable {F : FTy → Type} [FloatOps F]
variable (m : (ℓ : Loc nD τ sig) → Buf (Elt F) ℓ) (ρ : Dev nD → PrngReg)

/-! ## After the first stretch: the endpoint lists, the degrees, the scalar one -/

/-- The source endpoints with self-loops. -/
theorem b1_src (c : Dev nD) : W1 m ρ c (Proc.devRef .tc main_v1) = withLoops (m ((c : Thread nD τ).loc main_arg1)) := by
  have h0 : W0 m ρ c (Proc.devRef .tc main_arg1) = (m ((c : Thread nD τ).loc main_arg1)) := rfl
  show StableHlo.after hostOps0 (W0 m ρ c) (Proc.devRef .tc main_v1) = _
  generalize W0 m ρ c = X at h0 ⊢
  after_results
  rw [h0]
  generalize (m ((c : Thread nD τ).loc main_arg1)) = g0
  first | done | rfl

/-- The destination endpoints with self-loops. -/
theorem b1_dst (c : Dev nD) : W1 m ρ c (Proc.devRef .tc main_v2) = withLoops (m ((c : Thread nD τ).loc main_arg2)) := by
  have h0 : W0 m ρ c (Proc.devRef .tc main_arg2) = (m ((c : Thread nD τ).loc main_arg2)) := rfl
  show StableHlo.after hostOps0 (W0 m ρ c) (Proc.devRef .tc main_v2) = _
  generalize W0 m ρ c = X at h0 ⊢
  after_results
  rw [h0]
  generalize (m ((c : Thread nD τ).loc main_arg2)) = g0
  first | done | rfl

/-- The source-side degrees. -/
theorem b1_degSrc (c : Dev nD) : W1 m ρ c (Proc.devRef .tc main_v6) = degree (m ((c : Thread nD τ).loc main_arg1)) := by
  have h0 : W0 m ρ c (Proc.devRef .tc main_arg1) = (m ((c : Thread nD τ).loc main_arg1)) := rfl
  show StableHlo.after hostOps0 (W0 m ρ c) (Proc.devRef .tc main_v6) = _
  generalize W0 m ρ c = X at h0 ⊢
  after_results
  rw [h0]
  generalize (m ((c : Thread nD τ).loc main_arg1)) = g0
  first | done | rfl

/-- The destination-side degrees. -/
theorem b1_degDst (c : Dev nD) : W1 m ρ c (Proc.devRef .tc main_v9) = degree (m ((c : Thread nD τ).loc main_arg2)) := by
  have h0 : W0 m ρ c (Proc.devRef .tc main_arg2) = (m ((c : Thread nD τ).loc main_arg2)) := rfl
  show StableHlo.after hostOps0 (W0 m ρ c) (Proc.devRef .tc main_v9) = _
  generalize W0 m ρ c = X at h0 ⊢
  after_results
  rw [h0]
  generalize (m ((c : Thread nD τ).loc main_arg2)) = g0
  first | done | rfl

/-- The scalar one the first clip compares against. -/
theorem b1_one (c : Dev nD) : W1 m ρ c (Proc.devRef .tc main_cst_2) = constant (F := F) S_ .f32 0x3F800000#32 := by
  show StableHlo.after hostOps0 (W0 m ρ c) (Proc.devRef .tc main_cst_2) = _
  generalize W0 m ρ c = X
  after_results
  first | done | rfl

theorem b1_features (c : Dev nD) : W1 m ρ c (Proc.devRef .tc main_arg0) = (m ((c : Thread nD τ).loc main_arg0)) := by
  have h0 : W0 m ρ c (Proc.devRef .tc main_arg0) = (m ((c : Thread nD τ).loc main_arg0)) := rfl
  show StableHlo.after hostOps0 (W0 m ρ c) (Proc.devRef .tc main_arg0) = _
  generalize W0 m ρ c = X at h0 ⊢
  after_results
  rw [h0]
  first | done | rfl

theorem b1_w1 (c : Dev nD) : W1 m ρ c (Proc.devRef .tc main_arg3) = (m ((c : Thread nD τ).loc main_arg3)) := by
  have h0 : W0 m ρ c (Proc.devRef .tc main_arg3) = (m ((c : Thread nD τ).loc main_arg3)) := rfl
  show StableHlo.after hostOps0 (W0 m ρ c) (Proc.devRef .tc main_arg3) = _
  generalize W0 m ρ c = X at h0 ⊢
  after_results
  rw [h0]
  first | done | rfl

theorem b1_b1 (c : Dev nD) : W1 m ρ c (Proc.devRef .tc main_arg4) = (m ((c : Thread nD τ).loc main_arg4)) := by
  have h0 : W0 m ρ c (Proc.devRef .tc main_arg4) = (m ((c : Thread nD τ).loc main_arg4)) := rfl
  show StableHlo.after hostOps0 (W0 m ρ c) (Proc.devRef .tc main_arg4) = _
  generalize W0 m ρ c = X at h0 ⊢
  after_results
  rw [h0]
  first | done | rfl

theorem b1_w2 (c : Dev nD) : W1 m ρ c (Proc.devRef .tc main_arg5) = (m ((c : Thread nD τ).loc main_arg5)) := by
  have h0 : W0 m ρ c (Proc.devRef .tc main_arg5) = (m ((c : Thread nD τ).loc main_arg5)) := rfl
  show StableHlo.after hostOps0 (W0 m ρ c) (Proc.devRef .tc main_arg5) = _
  generalize W0 m ρ c = X at h0 ⊢
  after_results
  rw [h0]
  first | done | rfl

theorem b1_b2 (c : Dev nD) : W1 m ρ c (Proc.devRef .tc main_arg6) = (m ((c : Thread nD τ).loc main_arg6)) := by
  have h0 : W0 m ρ c (Proc.devRef .tc main_arg6) = (m ((c : Thread nD τ).loc main_arg6)) := rfl
  show StableHlo.after hostOps0 (W0 m ρ c) (Proc.devRef .tc main_arg6) = _
  generalize W0 m ρ c = X at h0 ⊢
  after_results
  rw [h0]
  first | done | rfl

/-! ## After the clip of the source degrees -/

theorem b2_src (c : Dev nD) : W2 m ρ c (Proc.devRef .tc main_v1) = withLoops (m ((c : Thread nD τ).loc main_arg1)) := by
  have h0 : W1 m ρ c (Proc.devRef .tc main_v1) = withLoops (m ((c : Thread nD τ).loc main_arg1)) := b1_src m ρ c
  show StableHlo.after hostOps0_1 (W1 m ρ c) (Proc.devRef .tc main_v1) = _
  generalize W1 m ρ c = X at h0 ⊢
  after_results
  rw [h0]
  first | done | rfl

theorem b2_dst (c : Dev nD) : W2 m ρ c (Proc.devRef .tc main_v2) = withLoops (m ((c : Thread nD τ).loc main_arg2)) := by
  have h0 : W1 m ρ c (Proc.devRef .tc main_v2) = withLoops (m ((c : Thread nD τ).loc main_arg2)) := b1_dst m ρ c
  show StableHlo.after hostOps0_1 (W1 m ρ c) (Proc.devRef .tc main_v2) = _
  generalize W1 m ρ c = X at h0 ⊢
  after_results
  rw [h0]
  first | done | rfl

theorem b2_degDst (c : Dev nD) : W2 m ρ c (Proc.devRef .tc main_v9) = degree (m ((c : Thread nD τ).loc main_arg2)) := by
  have h0 : W1 m ρ c (Proc.devRef .tc main_v9) = degree (m ((c : Thread nD τ).loc main_arg2)) := b1_degDst m ρ c
  show StableHlo.after hostOps0_1 (W1 m ρ c) (Proc.devRef .tc main_v9) = _
  generalize W1 m ρ c = X at h0 ⊢
  after_results
  rw [h0]
  first | done | rfl

/-- The source degrees, at least one. -/
theorem b2_clipSrc (c : Dev nD) : W2 m ρ c (Proc.devRef .tc main_v10) = atLeastOne (constant (F := F) S_ .f32 0x3F800000#32) (degree (m ((c : Thread nD τ).loc main_arg1))) := by
  have h0 : W1 m ρ c (Proc.devRef .tc main_cst_2) = constant (F := F) S_ .f32 0x3F800000#32 := b1_one m ρ c
  have h1 : W1 m ρ c (Proc.devRef .tc main_v6) = degree (m ((c : Thread nD τ).loc main_arg1)) := b1_degSrc m ρ c
  show StableHlo.after hostOps0_1 (W1 m ρ c) (Proc.devRef .tc main_v10) = _
  generalize W1 m ρ c = X at h0 h1 ⊢
  after_results
  rw [h0, h1]
  generalize degree (m ((c : Thread nD τ).loc main_arg1)) = g0
  first | done | rfl

theorem b2_features (c : Dev nD) : W2 m ρ c (Proc.devRef .tc main_arg0) = (m ((c : Thread nD τ).loc main_arg0)) := by
  have h0 : W1 m ρ c (Proc.devRef .tc main_arg0) = (m ((c : Thread nD τ).loc main_arg0)) := b1_features m ρ c
  show StableHlo.after hostOps0_1 (W1 m ρ c) (Proc.devRef .tc main_arg0) = _
  generalize W1 m ρ c = X at h0 ⊢
  after_results
  rw [h0]
  first | done | rfl

theorem b2_w1 (c : Dev nD) : W2 m ρ c (Proc.devRef .tc main_arg3) = (m ((c : Thread nD τ).loc main_arg3)) := by
  have h0 : W1 m ρ c (Proc.devRef .tc main_arg3) = (m ((c : Thread nD τ).loc main_arg3)) := b1_w1 m ρ c
  show StableHlo.after hostOps0_1 (W1 m ρ c) (Proc.devRef .tc main_arg3) = _
  generalize W1 m ρ c = X at h0 ⊢
  after_results
  rw [h0]
  first | done | rfl

theorem b2_b1 (c : Dev nD) : W2 m ρ c (Proc.devRef .tc main_arg4) = (m ((c : Thread nD τ).loc main_arg4)) := by
  have h0 : W1 m ρ c (Proc.devRef .tc main_arg4) = (m ((c : Thread nD τ).loc main_arg4)) := b1_b1 m ρ c
  show StableHlo.after hostOps0_1 (W1 m ρ c) (Proc.devRef .tc main_arg4) = _
  generalize W1 m ρ c = X at h0 ⊢
  after_results
  rw [h0]
  first | done | rfl

theorem b2_w2 (c : Dev nD) : W2 m ρ c (Proc.devRef .tc main_arg5) = (m ((c : Thread nD τ).loc main_arg5)) := by
  have h0 : W1 m ρ c (Proc.devRef .tc main_arg5) = (m ((c : Thread nD τ).loc main_arg5)) := b1_w2 m ρ c
  show StableHlo.after hostOps0_1 (W1 m ρ c) (Proc.devRef .tc main_arg5) = _
  generalize W1 m ρ c = X at h0 ⊢
  after_results
  rw [h0]
  first | done | rfl

theorem b2_b2 (c : Dev nD) : W2 m ρ c (Proc.devRef .tc main_arg6) = (m ((c : Thread nD τ).loc main_arg6)) := by
  have h0 : W1 m ρ c (Proc.devRef .tc main_arg6) = (m ((c : Thread nD τ).loc main_arg6)) := b1_b2 m ρ c
  show StableHlo.after hostOps0_1 (W1 m ρ c) (Proc.devRef .tc main_arg6) = _
  generalize W1 m ρ c = X at h0 ⊢
  after_results
  rw [h0]
  first | done | rfl

/-! ## After the power of the source side -/

theorem b3_src (c : Dev nD) : W3 m ρ c (Proc.devRef .tc main_v1) = withLoops (m ((c : Thread nD τ).loc main_arg1)) := by
  have h0 : W2 m ρ c (Proc.devRef .tc main_v1) = withLoops (m ((c : Thread nD τ).loc main_arg1)) := b2_src m ρ c
  show StableHlo.after hostOps0_2 (W2 m ρ c) (Proc.devRef .tc main_v1) = _
  generalize W2 m ρ c = X at h0 ⊢
  after_results
  rw [h0]
  first | done | rfl

theorem b3_dst (c : Dev nD) : W3 m ρ c (Proc.devRef .tc main_v2) = withLoops (m ((c : Thread nD τ).loc main_arg2)) := by
  have h0 : W2 m ρ c (Proc.devRef .tc main_v2) = withLoops (m ((c : Thread nD τ).loc main_arg2)) := b2_dst m ρ c
  show StableHlo.after hostOps0_2 (W2 m ρ c) (Proc.devRef .tc main_v2) = _
  generalize W2 m ρ c = X at h0 ⊢
  after_results
  rw [h0]
  first | done | rfl

theorem b3_degDst (c : Dev nD) : W3 m ρ c (Proc.devRef .tc main_v9) = degree (m ((c : Thread nD τ).loc main_arg2)) := by
  have h0 : W2 m ρ c (Proc.devRef .tc main_v9) = degree (m ((c : Thread nD τ).loc main_arg2)) := b2_degDst m ρ c
  show StableHlo.after hostOps0_2 (W2 m ρ c) (Proc.devRef .tc main_v9) = _
  generalize W2 m ρ c = X at h0 ⊢
  after_results
  rw [h0]
  first | done | rfl

/-- The source-side factors. -/
theorem b3_srcFactor (c : Dev nD) : W3 m ρ c (Proc.devRef .tc main_v12) = degFactor (m ((c : Thread nD τ).loc main_arg1)) := by
  have h0 : W2 m ρ c (Proc.devRef .tc main_v10) = atLeastOne (constant (F := F) S_ .f32 0x3F800000#32) (degree (m ((c : Thread nD τ).loc main_arg1))) := b2_clipSrc m ρ c
  show StableHlo.after hostOps0_2 (W2 m ρ c) (Proc.devRef .tc main_v12) = _
  generalize W2 m ρ c = X at h0 ⊢
  after_results
  rw [h0]
  show _ = invSqrt (atLeastOne (constant (F := F) S_ .f32 0x3F800000#32) (degree (m ((c : Thread nD τ).loc main_arg1))))
  generalize atLeastOne (constant (F := F) S_ .f32 0x3F800000#32) (degree (m ((c : Thread nD τ).loc main_arg1))) = g0
  first | done | rfl

/-- The scalar one the second clip compares against. -/
theorem b3_one (c : Dev nD) : W3 m ρ c (Proc.devRef .tc main_cst_4) = constant (F := F) S_ .f32 0x3F800000#32 := by
  show StableHlo.after hostOps0_2 (W2 m ρ c) (Proc.devRef .tc main_cst_4) = _
  generalize W2 m ρ c = X
  after_results
  first | done | rfl

theorem b3_features (c : Dev nD) : W3 m ρ c (Proc.devRef .tc main_arg0) = (m ((c : Thread nD τ).loc main_arg0)) := by
  have h0 : W2 m ρ c (Proc.devRef .tc main_arg0) = (m ((c : Thread nD τ).loc main_arg0)) := b2_features m ρ c
  show StableHlo.after hostOps0_2 (W2 m ρ c) (Proc.devRef .tc main_arg0) = _
  generalize W2 m ρ c = X at h0 ⊢
  after_results
  rw [h0]
  first | done | rfl

theorem b3_w1 (c : Dev nD) : W3 m ρ c (Proc.devRef .tc main_arg3) = (m ((c : Thread nD τ).loc main_arg3)) := by
  have h0 : W2 m ρ c (Proc.devRef .tc main_arg3) = (m ((c : Thread nD τ).loc main_arg3)) := b2_w1 m ρ c
  show StableHlo.after hostOps0_2 (W2 m ρ c) (Proc.devRef .tc main_arg3) = _
  generalize W2 m ρ c = X at h0 ⊢
  after_results
  rw [h0]
  first | done | rfl

theorem b3_b1 (c : Dev nD) : W3 m ρ c (Proc.devRef .tc main_arg4) = (m ((c : Thread nD τ).loc main_arg4)) := by
  have h0 : W2 m ρ c (Proc.devRef .tc main_arg4) = (m ((c : Thread nD τ).loc main_arg4)) := b2_b1 m ρ c
  show StableHlo.after hostOps0_2 (W2 m ρ c) (Proc.devRef .tc main_arg4) = _
  generalize W2 m ρ c = X at h0 ⊢
  after_results
  rw [h0]
  first | done | rfl

theorem b3_w2 (c : Dev nD) : W3 m ρ c (Proc.devRef .tc main_arg5) = (m ((c : Thread nD τ).loc main_arg5)) := by
  have h0 : W2 m ρ c (Proc.devRef .tc main_arg5) = (m ((c : Thread nD τ).loc main_arg5)) := b2_w2 m ρ c
  show StableHlo.after hostOps0_2 (W2 m ρ c) (Proc.devRef .tc main_arg5) = _
  generalize W2 m ρ c = X at h0 ⊢
  after_results
  rw [h0]
  first | done | rfl

theorem b3_b2 (c : Dev nD) : W3 m ρ c (Proc.devRef .tc main_arg6) = (m ((c : Thread nD τ).loc main_arg6)) := by
  have h0 : W2 m ρ c (Proc.devRef .tc main_arg6) = (m ((c : Thread nD τ).loc main_arg6)) := b2_b2 m ρ c
  show StableHlo.after hostOps0_2 (W2 m ρ c) (Proc.devRef .tc main_arg6) = _
  generalize W2 m ρ c = X at h0 ⊢
  after_results
  rw [h0]
  first | done | rfl

/-! ## After the clip of the destination degrees -/

theorem b4_src (c : Dev nD) : W4 m ρ c (Proc.devRef .tc main_v1) = withLoops (m ((c : Thread nD τ).loc main_arg1)) := by
  have h0 : W3 m ρ c (Proc.devRef .tc main_v1) = withLoops (m ((c : Thread nD τ).loc main_arg1)) := b3_src m ρ c
  show StableHlo.after hostOps0_3 (W3 m ρ c) (Proc.devRef .tc main_v1) = _
  generalize W3 m ρ c = X at h0 ⊢
  after_results
  rw [h0]
  first | done | rfl

theorem b4_dst (c : Dev nD) : W4 m ρ c (Proc.devRef .tc main_v2) = withLoops (m ((c : Thread nD τ).loc main_arg2)) := by
  have h0 : W3 m ρ c (Proc.devRef .tc main_v2) = withLoops (m ((c : Thread nD τ).loc main_arg2)) := b3_dst m ρ c
  show StableHlo.after hostOps0_3 (W3 m ρ c) (Proc.devRef .tc main_v2) = _
  generalize W3 m ρ c = X at h0 ⊢
  after_results
  rw [h0]
  first | done | rfl

theorem b4_srcFactor (c : Dev nD) : W4 m ρ c (Proc.devRef .tc main_v12) = degFactor (m ((c : Thread nD τ).loc main_arg1)) := by
  have h0 : W3 m ρ c (Proc.devRef .tc main_v12) = degFactor (m ((c : Thread nD τ).loc main_arg1)) := b3_srcFactor m ρ c
  show StableHlo.after hostOps0_3 (W3 m ρ c) (Proc.devRef .tc main_v12) = _
  generalize W3 m ρ c = X at h0 ⊢
  after_results
  rw [h0]
  first | done | rfl

/-- The destination degrees, at least one. -/
theorem b4_clipDst (c : Dev nD) : W4 m ρ c (Proc.devRef .tc main_v13) = atLeastOne (constant (F := F) S_ .f32 0x3F800000#32) (degree (m ((c : Thread nD τ).loc main_arg2))) := by
  have h0 : W3 m ρ c (Proc.devRef .tc main_cst_4) = constant (F := F) S_ .f32 0x3F800000#32 := b3_one m ρ c
  have h1 : W3 m ρ c (Proc.devRef .tc main_v9) = degree (m ((c : Thread nD τ).loc main_arg2)) := b3_degDst m ρ c
  show StableHlo.after hostOps0_3 (W3 m ρ c) (Proc.devRef .tc main_v13) = _
  generalize W3 m ρ c = X at h0 h1 ⊢
  after_results
  rw [h0, h1]
  generalize degree (m ((c : Thread nD τ).loc main_arg2)) = g0
  first | done | rfl

theorem b4_features (c : Dev nD) : W4 m ρ c (Proc.devRef .tc main_arg0) = (m ((c : Thread nD τ).loc main_arg0)) := by
  have h0 : W3 m ρ c (Proc.devRef .tc main_arg0) = (m ((c : Thread nD τ).loc main_arg0)) := b3_features m ρ c
  show StableHlo.after hostOps0_3 (W3 m ρ c) (Proc.devRef .tc main_arg0) = _
  generalize W3 m ρ c = X at h0 ⊢
  after_results
  rw [h0]
  first | done | rfl

theorem b4_w1 (c : Dev nD) : W4 m ρ c (Proc.devRef .tc main_arg3) = (m ((c : Thread nD τ).loc main_arg3)) := by
  have h0 : W3 m ρ c (Proc.devRef .tc main_arg3) = (m ((c : Thread nD τ).loc main_arg3)) := b3_w1 m ρ c
  show StableHlo.after hostOps0_3 (W3 m ρ c) (Proc.devRef .tc main_arg3) = _
  generalize W3 m ρ c = X at h0 ⊢
  after_results
  rw [h0]
  first | done | rfl

theorem b4_b1 (c : Dev nD) : W4 m ρ c (Proc.devRef .tc main_arg4) = (m ((c : Thread nD τ).loc main_arg4)) := by
  have h0 : W3 m ρ c (Proc.devRef .tc main_arg4) = (m ((c : Thread nD τ).loc main_arg4)) := b3_b1 m ρ c
  show StableHlo.after hostOps0_3 (W3 m ρ c) (Proc.devRef .tc main_arg4) = _
  generalize W3 m ρ c = X at h0 ⊢
  after_results
  rw [h0]
  first | done | rfl

theorem b4_w2 (c : Dev nD) : W4 m ρ c (Proc.devRef .tc main_arg5) = (m ((c : Thread nD τ).loc main_arg5)) := by
  have h0 : W3 m ρ c (Proc.devRef .tc main_arg5) = (m ((c : Thread nD τ).loc main_arg5)) := b3_w2 m ρ c
  show StableHlo.after hostOps0_3 (W3 m ρ c) (Proc.devRef .tc main_arg5) = _
  generalize W3 m ρ c = X at h0 ⊢
  after_results
  rw [h0]
  first | done | rfl

theorem b4_b2 (c : Dev nD) : W4 m ρ c (Proc.devRef .tc main_arg6) = (m ((c : Thread nD τ).loc main_arg6)) := by
  have h0 : W3 m ρ c (Proc.devRef .tc main_arg6) = (m ((c : Thread nD τ).loc main_arg6)) := b3_b2 m ρ c
  show StableHlo.after hostOps0_3 (W3 m ρ c) (Proc.devRef .tc main_arg6) = _
  generalize W3 m ρ c = X at h0 ⊢
  after_results
  rw [h0]
  first | done | rfl

/-! ## At the first kernel's entry -/

/-- The source endpoints with self-loops. -/
theorem entry_src (c : Dev nD) : W5 m ρ c (Proc.devRef .tc main_v1) = withLoops (m ((c : Thread nD τ).loc main_arg1)) := by
  have h0 : W4 m ρ c (Proc.devRef .tc main_v1) = withLoops (m ((c : Thread nD τ).loc main_arg1)) := b4_src m ρ c
  show StableHlo.after hostOps0_4 (W4 m ρ c) (Proc.devRef .tc main_v1) = _
  generalize W4 m ρ c = X at h0 ⊢
  after_results
  rw [h0]
  first | done | rfl

/-- The destination endpoints with self-loops. -/
theorem entry_dst (c : Dev nD) : W5 m ρ c (Proc.devRef .tc main_v2) = withLoops (m ((c : Thread nD τ).loc main_arg2)) := by
  have h0 : W4 m ρ c (Proc.devRef .tc main_v2) = withLoops (m ((c : Thread nD τ).loc main_arg2)) := b4_dst m ρ c
  show StableHlo.after hostOps0_4 (W4 m ρ c) (Proc.devRef .tc main_v2) = _
  generalize W4 m ρ c = X at h0 ⊢
  after_results
  rw [h0]
  first | done | rfl

/-- The source-side factors. -/
theorem entry_srcFactor (c : Dev nD) : W5 m ρ c (Proc.devRef .tc main_v12) = degFactor (m ((c : Thread nD τ).loc main_arg1)) := by
  have h0 : W4 m ρ c (Proc.devRef .tc main_v12) = degFactor (m ((c : Thread nD τ).loc main_arg1)) := b4_srcFactor m ρ c
  show StableHlo.after hostOps0_4 (W4 m ρ c) (Proc.devRef .tc main_v12) = _
  generalize W4 m ρ c = X at h0 ⊢
  after_results
  rw [h0]
  first | done | rfl

/-- The destination-side factors. -/
theorem entry_dstFactor (c : Dev nD) : W5 m ρ c (Proc.devRef .tc main_v15) = degFactor (m ((c : Thread nD τ).loc main_arg2)) := by
  have h0 : W4 m ρ c (Proc.devRef .tc main_v13) = atLeastOne (constant (F := F) S_ .f32 0x3F800000#32) (degree (m ((c : Thread nD τ).loc main_arg2))) := b4_clipDst m ρ c
  show StableHlo.after hostOps0_4 (W4 m ρ c) (Proc.devRef .tc main_v15) = _
  generalize W4 m ρ c = X at h0 ⊢
  after_results
  rw [h0]
  show _ = invSqrt (atLeastOne (constant (F := F) S_ .f32 0x3F800000#32) (degree (m ((c : Thread nD τ).loc main_arg2))))
  generalize atLeastOne (constant (F := F) S_ .f32 0x3F800000#32) (degree (m ((c : Thread nD τ).loc main_arg2))) = g0
  first | done | rfl

/-- The first aggregate: of the features. -/
theorem entry_agg (c : Dev nD) : W5 m ρ c (Proc.devRef .tc main_v28) = aggregate (m ((c : Thread nD τ).loc main_arg0)) (m ((c : Thread nD τ).loc main_arg1)) (m ((c : Thread nD τ).loc main_arg2)) := by
  have h0 : W4 m ρ c (Proc.devRef .tc main_arg0) = (m ((c : Thread nD τ).loc main_arg0)) := b4_features m ρ c
  have h1 : W4 m ρ c (Proc.devRef .tc main_v12) = degFactor (m ((c : Thread nD τ).loc main_arg1)) := b4_srcFactor m ρ c
  have h2 : W4 m ρ c (Proc.devRef .tc main_v1) = withLoops (m ((c : Thread nD τ).loc main_arg1)) := b4_src m ρ c
  have h3 : W4 m ρ c (Proc.devRef .tc main_v2) = withLoops (m ((c : Thread nD τ).loc main_arg2)) := b4_dst m ρ c
  show StableHlo.after hostOps0_4 (W4 m ρ c) (Proc.devRef .tc main_v28) = _
  generalize W4 m ρ c = X at h0 h1 h2 h3 ⊢
  after_results
  rw [h0, h1, h2, h3]
  show _ = aggregateOf (m ((c : Thread nD τ).loc main_arg0)) (degFactor (m ((c : Thread nD τ).loc main_arg1))) (withLoops (m ((c : Thread nD τ).loc main_arg1))) (withLoops (m ((c : Thread nD τ).loc main_arg2)))
  generalize degFactor (m ((c : Thread nD τ).loc main_arg1)) = g0
  generalize withLoops (m ((c : Thread nD τ).loc main_arg1)) = g1
  generalize withLoops (m ((c : Thread nD τ).loc main_arg2)) = g2
  generalize (m ((c : Thread nD τ).loc main_arg0)) = g3
  first | done | rfl

/-- The destination factors as a column. -/
theorem entry_factor (c : Dev nD) : W5 m ρ c (Proc.devRef .tc main_v29) = factorColumn (m ((c : Thread nD τ).loc main_arg2)) := by
  have h0 : W4 m ρ c (Proc.devRef .tc main_v13) = atLeastOne (constant (F := F) S_ .f32 0x3F800000#32) (degree (m ((c : Thread nD τ).loc main_arg2))) := b4_clipDst m ρ c
  show StableHlo.after hostOps0_4 (W4 m ρ c) (Proc.devRef .tc main_v29) = _
  generalize W4 m ρ c = X at h0 ⊢
  after_results
  rw [h0]
  show _ = columnOf (invSqrt (atLeastOne (constant (F := F) S_ .f32 0x3F800000#32) (degree (m ((c : Thread nD τ).loc main_arg2)))))
  generalize atLeastOne (constant (F := F) S_ .f32 0x3F800000#32) (degree (m ((c : Thread nD τ).loc main_arg2))) = g0
  first | done | rfl

/-- The first bias as a row. -/
theorem entry_bias (c : Dev nD) : W5 m ρ c (Proc.devRef .tc main_v30) = hiddenBias (m ((c : Thread nD τ).loc main_arg4)) := by
  have h0 : W4 m ρ c (Proc.devRef .tc main_arg4) = (m ((c : Thread nD τ).loc main_arg4)) := b4_b1 m ρ c
  show StableHlo.after hostOps0_4 (W4 m ρ c) (Proc.devRef .tc main_v30) = _
  generalize W4 m ρ c = X at h0 ⊢
  after_results
  rw [h0]
  generalize (m ((c : Thread nD τ).loc main_arg4)) = g0
  first | done | rfl

/-- The two weight matrices and the second bias are as launched: no host operation writes an argument. -/
theorem entry_w1 (c : Dev nD) : W5 m ρ c (Proc.devRef .tc main_arg3) = (m ((c : Thread nD τ).loc main_arg3)) := by
  have h0 : W4 m ρ c (Proc.devRef .tc main_arg3) = (m ((c : Thread nD τ).loc main_arg3)) := b4_w1 m ρ c
  show StableHlo.after hostOps0_4 (W4 m ρ c) (Proc.devRef .tc main_arg3) = _
  generalize W4 m ρ c = X at h0 ⊢
  after_results
  rw [h0]
  first | done | rfl

theorem entry_w2 (c : Dev nD) : W5 m ρ c (Proc.devRef .tc main_arg5) = (m ((c : Thread nD τ).loc main_arg5)) := by
  have h0 : W4 m ρ c (Proc.devRef .tc main_arg5) = (m ((c : Thread nD τ).loc main_arg5)) := b4_w2 m ρ c
  show StableHlo.after hostOps0_4 (W4 m ρ c) (Proc.devRef .tc main_arg5) = _
  generalize W4 m ρ c = X at h0 ⊢
  after_results
  rw [h0]
  first | done | rfl

theorem entry_b2 (c : Dev nD) : W5 m ρ c (Proc.devRef .tc main_arg6) = (m ((c : Thread nD τ).loc main_arg6)) := by
  have h0 : W4 m ρ c (Proc.devRef .tc main_arg6) = (m ((c : Thread nD τ).loc main_arg6)) := b4_b2 m ρ c
  show StableHlo.after hostOps0_4 (W4 m ρ c) (Proc.devRef .tc main_arg6) = _
  generalize W4 m ρ c = X at h0 ⊢
  after_results
  rw [h0]
  first | done | rfl

end Cert.Gcn.Entry0

end
-- ==== Proof.Layer.lean ====
/-
  One layer of the two-layer graph convolution, entry by entry, on the extended reals.

  After the messages of a layer have been summed into each destination node (an N × 64 array `A`), the layer
  scales row `p` by that node's in-degree factor `n p` (kept as an N × 1 column), multiplies by the weight
  matrix `W` (64 × D) and adds the bias `b` (kept as a 1 × D row):

      affineAt A n W b p q  =  Σₖ (A[p,k] · n[p,0]) · W[k,q]  +  b[0,q].

  The hidden layer then takes the maximum with zero; the output layer does not. Both programs compute exactly
  this expression, term for term and in this order of operations, so no law of the extended reals beyond
  reading each operation at an index is needed to compare them.
-/
import Idealize.ShloMosaic.PureOps.Ideal
import Idealize.ShloMosaic.Lib.ValueIdx

noncomputable section

open scoped BigOperators

namespace Cert.Gcn

open Idealize.ShloMosaic Idealize.ShloMosaic.ValueIdx

/-- Entry `(p, q)` of a layer before its activation: row `p` of the aggregate scaled by node `p`'s factor, against
    column `q` of the weights, plus bias `q`. -/
def affineAt {N D : ℕ} (A : FVec Ideal ⟨2, ![N, 64]⟩ .f32) (n : FVec Ideal ⟨2, ![N, 1]⟩ .f32)
    (W : FVec Ideal ⟨2, ![64, D]⟩ .f32) (b : FVec Ideal ⟨2, ![1, D]⟩ .f32) (p : Fin N) (q : Fin D) : EReal :=
  (∑ k : Fin 64, A (ix2 p k) * n (ix2 p (0 : Fin 1)) * W (ix2 k q)) + b (ix2 (0 : Fin 1) q)

/-- An entry depends only on row `p` of the aggregate, node `p`'s factor, column `q` of the weights and bias `q`:
    two sets of arrays that agree there (the rows possibly at different positions `p`, `p'` of arrays of different
    heights: a block against the whole array) give the same entry. -/
theorem affineAt_congr {N N' D : ℕ} (A : FVec Ideal ⟨2, ![N, 64]⟩ .f32) (n : FVec Ideal ⟨2, ![N, 1]⟩ .f32)
    (W : FVec Ideal ⟨2, ![64, D]⟩ .f32) (b : FVec Ideal ⟨2, ![1, D]⟩ .f32)
    (A' : FVec Ideal ⟨2, ![N', 64]⟩ .f32) (n' : FVec Ideal ⟨2, ![N', 1]⟩ .f32)
    (W' : FVec Ideal ⟨2, ![64, D]⟩ .f32) (b' : FVec Ideal ⟨2, ![1, D]⟩ .f32) (p : Fin N) (p' : Fin N') (q : Fin D)
    (hA : ∀ k : Fin 64, A (ix2 p k) = A' (ix2 p' k)) (hn : n (ix2 p (0 : Fin 1)) = n' (ix2 p' (0 : Fin 1)))
    (hW : ∀ k : Fin 64, W (ix2 k q) = W' (ix2 k q)) (hb : b (ix2 (0 : Fin 1) q) = b' (ix2 (0 : Fin 1) q)) :
    affineAt A n W b p q = affineAt A' n' W' b' p' q := by
  unfold affineAt
  rw [hn, hb]
  exact congrArg (· + b' (ix2 (0 : Fin 1) q)) (Finset.sum_congr rfl fun k _ => by rw [hA k, hW k])

/-- The output layer: the affine map at every entry. -/
def affine {N D : ℕ} (A : FVec Ideal ⟨2, ![N, 64]⟩ .f32) (n : FVec Ideal ⟨2, ![N, 1]⟩ .f32)
    (W : FVec Ideal ⟨2, ![64, D]⟩ .f32) (b : FVec Ideal ⟨2, ![1, D]⟩ .f32) : FVec Ideal ⟨2, ![N, D]⟩ .f32 :=
  fun j => affineAt A n W b (j 0) (j 1)

/-- The hidden layer: the affine map followed by the maximum with zero. -/
def affineRelu {N D : ℕ} (A : FVec Ideal ⟨2, ![N, 64]⟩ .f32) (n : FVec Ideal ⟨2, ![N, 1]⟩ .f32)
    (W : FVec Ideal ⟨2, ![64, D]⟩ .f32) (b : FVec Ideal ⟨2, ![1, D]⟩ .f32) : FVec Ideal ⟨2, ![N, D]⟩ .f32 :=
  fun j => max (affineAt A n W b (j 0) (j 1)) (Ideal.ofBits .f32 0x00000000#32)

theorem affine_apply {N D : ℕ} (A : FVec Ideal ⟨2, ![N, 64]⟩ .f32) (n : FVec Ideal ⟨2, ![N, 1]⟩ .f32)
    (W : FVec Ideal ⟨2, ![64, D]⟩ .f32) (b : FVec Ideal ⟨2, ![1, D]⟩ .f32) (p : Fin N) (q : Fin D) :
    affine A n W b (ix2 p q) = affineAt A n W b p q := rfl

theorem affineRelu_apply {N D : ℕ} (A : FVec Ideal ⟨2, ![N, 64]⟩ .f32) (n : FVec Ideal ⟨2, ![N, 1]⟩ .f32)
    (W : FVec Ideal ⟨2, ![64, D]⟩ .f32) (b : FVec Ideal ⟨2, ![1, D]⟩ .f32) (p : Fin N) (q : Fin D) :
    affineRelu A n W b (ix2 p q) = max (affineAt A n W b p q) (Ideal.ofBits .f32 0x00000000#32) := rfl

end Cert.Gcn

end
-- ==== Proof.LibPlainDot.lean ====
/-
  A plain matrix product read at a row and a column.

  For the dimension numbers "contract the left operand's columns with the right operand's rows, no batch axis"
  (`DotDims.plain M K N`), a `tpu.matmul` into an accumulator of zeros, read on the extended reals at row `p`
  and column `q`, is `Σₜ A[p, t] · B[t, q]` over `t : Fin K`: the accumulator contributes `0`, and the sum over
  the one-axis contraction index is re-indexed by that axis's coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The left operand's index at output `(p, q)` and contraction coordinate `t` is `(p, t)`. -/
theorem lhsIdx_eq (M K N : Nat) (p : Fin M) (q : Fin N) (t : Fin K) :
    (DotDims.plain M K N).lhsIdx (ix2 p q) ((contrEquiv1 (DotDims.plain M K N) K rfl rfl).symm t) = ix2 p t := by
  have hk := contrEquiv1_symm_val (DotDims.plain M K N) K rfl rfl t
  funext a
  apply Fin.ext
  match a with
  | ⟨0, _⟩ => rfl
  | ⟨1, _⟩ => exact ((DotDims.plain M K N).lhsIdx_val_of_single rfl (ix2 p q) _).trans hk

/-- The right operand's is `(t, q)`. -/
theorem rhsIdx_eq (M K N : Nat) (p : Fin M) (q : Fin N) (t : Fin K) :
    (DotDims.plain M K N).rhsIdx (ix2 p q) ((contrEquiv1 (DotDims.plain M K N) K rfl rfl).symm t) = ix2 t q := by
  have hk := contrEquiv1_symm_val (DotDims.plain M K N) K rfl rfl t
  funext a
  apply Fin.ext
  match a with
  | ⟨0, _⟩ => exact ((DotDims.plain M K N).rhsIdx_val_of_single rfl (ix2 p q) _).trans hk
  | ⟨1, _⟩ => rfl

/-- A plain `M × K` by `K × N` product into zeros, at row `p` and column `q`, is `Σₜ A[p, t] · B[t, q]`. -/
theorem matmul_zero_apply {φ₁ φ₂ : FTy} (M K N : Nat) (prec : Option ContractPrecision)
    (A : FVec Ideal ⟨2, ![M, K]⟩ φ₁) (B : FVec Ideal ⟨2, ![K, N]⟩ φ₂) (p : Fin M) (q : Fin N) :
    FloatOps.matmul (DotDims.plain M K N) prec A B (constant ⟨2, ![M, N]⟩ .f32 0x00000000#32) (ix2 p q)
      = ∑ t : Fin K, A (ix2 p t) * B (ix2 t q) := by
  rw [Ideal.matmul_constant_zero_apply, ← Equiv.sum_comp (contrEquiv1 (DotDims.plain M K N) K rfl rfl).symm]
  refine Finset.sum_congr rfl fun t _ => ?_
  rw [lhsIdx_eq, rhsIdx_eq]

end Idealize.ShloMosaic.PlainDot

end
-- ==== Proof.LibRowSums.lean ====
/-
  Row sums kept as a column, read at coordinates.

  `jnp.sum(x, axis=-1, keepdims=True)` of an `a × b` matrix is a lane reduction into a vector of length `a`,
  recast as an `a × 1` column; a kernel then either broadcasts the column along the rows of an `a × c`
  matrix, or transposes it to a `1 × a` row first. Read on the extended reals at explicit coordinates:
  the reduction at `p` is `Σₖ x[p, k]` over `k : Fin b`; the column at `(p, u)` is the vector at `p`; the
  column broadcast at `(p, q)` is the column at `(p, 0)`.
-/
import Idealize.ShloMosaic.PureOps.Ideal.Laws
import Idealize.ShloMosaic.Lib.ValueIdx
import Idealize.ShloMosaic.Lib.Pipeline.Value

noncomputable section

open scoped BigOperators

namespace Idealize.ShloMosaic.RowSums

open Idealize.ShloMosaic Idealize.ShloMosaic.ValueIdx

variable {α : Type}

/-- A length-`a` vector recast as an `a × 1` column reads, at `(p, u)`, the vector at `p`: both sit at
    row-major position `p`, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a × 1` column broadcast along the rows of an `a × c` matrix reads, at `(p, q)`, the column at `(p, 0)`. -/
theorem broadcastTo_a1_ac_apply {a c : ℕ} (v : (⟨2, ![a, 1]⟩ : Shape).Idx → α) (h : (⟨2, ![a, 1]⟩ : Shape).Broadcasts ⟨2, ![a, c]⟩)
    (p : Fin a) (q : Fin c) : broadcastTo ⟨2, ![a, c]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A lane reduction by `+` from the zero word of an `a × b` matrix over its second axis reads, at `p`, the sum
    `Σₖ x[p, k]` over `k : Fin b`: the index lifted from `p` with `k` inserted on the reduced axis is `(p, k)`. -/
theorem rowSum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x (funext fun d => Fin.ext ?_)
  match d with
  | ⟨0, _⟩ => rfl
  | ⟨1, _⟩ => rfl

end Idealize.ShloMosaic.RowSums

end
-- ==== Proof.LibMatrixReads.lean ====
/-
  Matrices read at a row and a column, and a sum over consecutive runs.

  For arrays with two axes of literal extents: a single row broadcast down the rows reads that row; a slice at a
  row offset and a column offset reads the operand that many rows down and columns to the right; a transpose
  swaps the coordinates; a vector laid out as a single row reads the vector. And in any commutative monoid a sum
  over `a + b` consecutive terms is the sum of the first `a` plus the sum of the last `b`.
-/
import Idealize.ShloMosaic.Lib.Pipeline.Value
import Idealize.ShloMosaic.Lib.ValueIdx
import Mathlib.Algebra.BigOperators.Fin

noncomputable section

open scoped BigOperators

namespace Idealize.ShloMosaic.MatrixReads

open Idealize.ShloMosaic Idealize.ShloMosaic.ValueIdx

/-- A single row broadcast down `m` rows reads that row at every row. -/
theorem rowBroadcast_apply {α : Type} (m n : Nat) (x : (⟨2, ![1, n]⟩ : Shape).Idx → α)
    (h : (⟨2, ![1, n]⟩ : Shape).Broadcasts ⟨2, ![m, n]⟩) (p : Fin m) (j : Fin n) :
    broadcastTo ⟨2, ![m, n]⟩ x h (ix2 p j) = x (ix2 (0 : Fin 1) j) := by
  refine broadcastTo_apply x h (ix2 p j) (ix2 0 j) fun a => ?_
  match a with
  | ⟨0, _⟩ => rfl
  | ⟨1, _⟩ =>
    show j.val = if n = 1 then 0 else j.val
    have := j.isLt
    split_ifs with hn
    · omega
    · rfl

/-- A slice of columns `off … off + n' - 1` reads the operand `off` columns to the right. -/
theorem colSlice_apply {α : Type} (m n n' off : Nat) (x : (⟨2, ![m, n]⟩ : Shape).Idx → α)
    (h : (⟨2, ![m, n]⟩ : Shape).Slices ![0, off] ⟨2, ![m, n']⟩) (p : Fin m) (j : Fin n') (hj : j.val + off < n) :
    extractStridedSlice ⟨2, ![m, n']⟩ ![0, off] x h (ix2 p j) = x (ix2 p (⟨j.val + off, hj⟩ : Fin n)) := by
  refine extractStridedSlice_apply _ x h (ix2 p j) _ fun a => ?_
  match a with
  | ⟨0, _⟩ => show p.val = 0 + p.val; omega
  | ⟨1, _⟩ => show j.val + off = off + j.val; omega

/-- A slice of a matrix at row offset `o0` and column offset `o1`. -/
theorem slice2_apply {α : Type} (m n m' n' o0 o1 : Nat) (x : (⟨2, ![m, n]⟩ : Shape).Idx → α)
    (h : (⟨2, ![m, n]⟩ : Shape).Slices ![o0, o1] ⟨2, ![m', n']⟩) (p : Fin m') (j : Fin n')
    (hp : p.val + o0 < m) (hj : j.val + o1 < n) :
    extractStridedSlice ⟨2, ![m', n']⟩ ![o0, o1] x h (ix2 p j) = x (ix2 (⟨p.val + o0, hp⟩ : Fin m) (⟨j.val + o1, hj⟩ : Fin n)) := by
  refine extractStridedSlice_apply _ x h (ix2 p j) _ fun a => ?_
  match a with
  | ⟨0, _⟩ => show p.val + o0 = o0 + p.val; omega
  | ⟨1, _⟩ => show j.val + o1 = o1 + j.val; omega

/-- The transpose of a matrix. -/
theorem transpose2_apply {α : Type} (m n : Nat) (x : (⟨2, ![m, n]⟩ : Shape).Idx → α)
    (h : (⟨2, ![m, n]⟩ : Shape).Transposes [1, 0] ⟨2, ![n, m]⟩) (k : Fin n) (j : Fin m) :
    transpose ⟨2, ![n, m]⟩ [1, 0] x h (ix2 k j) = x (ix2 j k) :=
  transpose_apply [1, 0] x h (ix2 k j) (ix2 j k) (fun b => match b with
    | ⟨0, _⟩ => rfl
    | ⟨1, _⟩ => rfl)

/-- A vector laid out as a single row. -/
theorem rowOfVec_apply {α : Type} (n : Nat) (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply x h _ _ ?_
  rw [Shape.rowMajor_val_one, Shape.rowMajor_val_two]
  show j.val = (0 : Nat) * n + j.val
  omega

/-- A sum over `a + b` terms is the sum of the first `a` plus the sum of the last `b`. -/
theorem sum_two_runs {M : Type} [AddCommMonoid M] (a b : Nat) (f : Fin (a + b) → M) :
    ∑ k, f k = (∑ k : Fin a, f ⟨k.val, by omega⟩) + ∑ k : Fin b, f ⟨k.val + a, by omega⟩ := by
  rw [Fin.sum_univ_add]
  congr 1
  refine Finset.sum_congr rfl fun k _ => congrArg f (Fin.ext ?_)
  simp [Fin.natAdd, Nat.add_comm]

end Idealize.ShloMosaic.MatrixReads

end
-- ==== Proof.BlockLayer.lean ====
/-
  What one grid step of each kernel stores, read at a row and a column of its block.

  A step loads a 10000 × 64 block of the aggregate, the matching 10000 × 1 block of in-degree factors, the whole
  weight matrix and the bias row. It multiplies each row by its factor, narrows both operands to bf16 (on the
  extended reals a change of format is the identity), takes their matrix product into an accumulator of zeros
  (the sum over the 64 contracted coordinates), adds the bias row broadcast down the block, and in the hidden
  layer takes the maximum with zero. At `(p, q)` that is the layer's entry for the block's arrays.
-/
import proofs.«160539_j33784212750626_1_alg».proof.Proof.Gen.KernelIdeal.Skeleton
import proofs.«160539_j33784212750626_1_alg».proof.Proof.Layer
import proofs.«160539_j33784212750626_1_alg».proof.Proof.LibPlainDot
import proofs.«160539_j33784212750626_1_alg».proof.Proof.LibRowSums
import proofs.«160539_j33784212750626_1_alg».proof.Proof.LibMatrixReads
import Idealize.ShloMosaic.Lib.Pipeline.Value

noncomputable section

open scoped BigOperators

namespace Cert.Gcn.Block

open Idealize.ShloMosaic Idealize.ShloMosaic.ValueIdx Cert.KernelIdeal Cert.KernelIdeal.Gen

/-- The hidden layer's contraction is the plain one: left columns against right rows, no batch axis. -/
theorem dotHidden_plain : dot_S10000x64_S64x64_S10000x64_1_0_0_1_n_n = DotDims.plain 10000 64 64 := rfl
/-- So is the output layer's. -/
theorem dotOut_plain : dot_S10000x64_S64x32_S10000x32_1_0_0_1_n_n = DotDims.plain 10000 64 32 := rfl

/-- The hidden layer's stored block at `(p, q)`: the affine entry of the block's arrays, then the maximum with zero. -/
theorem hidden_at (x0 : FVec Ideal S10000x64 .f32) (x1 : FVec Ideal S10000x1 .f32) (x2 : FVec Ideal S64x64 .f32)
    (x3 : FVec Ideal S1x64 .f32) (p : Fin 10000) (q : Fin 64) :
    k0_pay1 (F := Ideal) x0 x1 x2 x3 (ix2 p q) = max (affineAt x0 x1 x2 x3 p q) (Ideal.ofBits .f32 0x00000000#32) := by
  unfold k0_pay1 affineAt
  rw [maximumf_apply, addf_apply, dotHidden_plain]
  unfold matmul
  rw [PlainDot.matmul_zero_apply, MatrixReads.rowBroadcast_apply, shapeCast_self, broadcast_apply]
  simp only [truncf_apply, mulf_apply, shapeCast_self, RowSums.broadcastTo_a1_ac_apply]
  rfl

/-- The output layer's stored block at `(p, q)`: the affine entry of the block's arrays. -/
theorem out_at (x0 : FVec Ideal S10000x64 .f32) (x1 : FVec Ideal S10000x1 .f32) (x2 : FVec Ideal S64x32 .f32)
    (x3 : FVec Ideal S1x32 .f32) (p : Fin 10000) (q : Fin 32) :
    k1_pay1 (F := Ideal) x0 x1 x2 x3 (ix2 p q) = affineAt x0 x1 x2 x3 p q := by
  unfold k1_pay1 affineAt
  rw [addf_apply, dotOut_plain]
  unfold matmul
  rw [PlainDot.matmul_zero_apply, MatrixReads.rowBroadcast_apply, shapeCast_self]
  simp only [truncf_apply, mulf_apply, shapeCast_self, RowSums.broadcastTo_a1_ac_apply]

end Cert.Gcn.Block

end
-- ==== Proof.HiddenArray.lean ====
/-
  The hidden layer's whole array after its kernel has run over the ten row blocks.

  The kernel's grid has ten steps; step `t` reads rows `10000·t … 10000·t + 9999` of the aggregate and of the factor
  column, the whole weight matrix and the bias row, and writes back the same rows of the result. Row `p` of block `t`
  is row `10000·t + p` of the arrays, so what step `t` writes back is block `t` of ONE function of the arrays the
  kernel was entered with — the layer's affine map followed by the maximum with zero — and the ten blocks tile the
  100000 rows. Stated for any contents `V` of the buffers at the kernel's entry.
-/
import proofs.«160539_j33784212750626_1_alg».proof.Proof.Gen.KernelIdeal.Frame
import proofs.«160539_j33784212750626_1_alg».proof.Proof.BlockLayer

set_option maxRecDepth 16384

noncomputable section

open scoped BigOperators

namespace Cert.Gcn.Hidden

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The arrays the kernel is entered with, at their literal shapes. -/
abbrev agg (c : Dev nD) : FVec Ideal S100000x64 .f32 := V c main_v28
abbrev factor (c : Dev nD) : FVec Ideal S100000x1 .f32 := V c main_v29
abbrev weight (c : Dev nD) : FVec Ideal S64x64 .f32 := V c main_arg3
abbrev bias (c : Dev nD) : FVec Ideal S1x64 .f32 := V c main_v30

theorem origin : (![0, 0] : Fin 2 → Nat) = fun _ => 0 := funext fun a => by fin_cases a <;> rfl

/-- The block each window is at, step by step: the row-blocked windows at block row `t`, the weights and the bias
    always at their one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT STEP `t` WRITES BACK is block `t` of the hidden layer of the entry arrays. -/
theorem flushed_eq (c : Dev nD) (t : Fin cfg0.N) :
    (dat0 V c).flushed 4 t = ((cfg0.win 4).blk t).view.read (Elt Ideal)
      (affineRelu (agg V c) (factor V c) (weight V c) (bias V c)) := by
  show (cfg0.win 4).cut (grid0.coords t) ((dat0 V c).after 4 t) = _
  rw [after0_4]
  unfold out0_4
  rw [View.canon_unit_zero origin]
  simp only [View.ld_unit_zero (S := S10000x64) origin, View.ld_unit_zero (S := S10000x1) origin,
    View.ld_unit_zero (S := S64x64) origin, View.ld_unit_zero (S := S1x64) origin]
  obtain ⟨e00, e01, e10, e11, e20, e21, e30, e31, e40, e41⟩ := block_index t
  have hN : t.val < 10 := lt_of_lt_of_eq t.isLt N_0
  funext j
  obtain ⟨p, q, rfl⟩ : ∃ (p : Fin 10000) (q : Fin 64), j = ix2 p q := ⟨j 0, j 1, eq_ix2 j⟩
  have hp : p.val < 10000 := p.isLt
  have hq : q.val < 64 := q.isLt
  have hrow : t.val * 10000 + p.val < 100000 := by omega
  -- row `p` of block `t` is row `10000·t + p` of the arrays
  have eOut : ((cfg0.win 4).blk t).view.emb (ix2 p q) = ix2 (⟨t.val * 10000 + p.val, hrow⟩ : Fin 100000) q := by
    funext a; apply Fin.ext
    match a with
    | ⟨0, _⟩ => show win0_4.index t (0 : Fin 2) * 10000 + 1 * p.val = t.val * 10000 + p.val; omega
    | ⟨1, _⟩ => show win0_4.index t (1 : Fin 2) * 64 + 1 * q.val = q.val; omega
  have eAgg : ∀ k : Fin 64, ((cfg0.win 0).blk t).view.emb (ix2 p k) = ix2 (⟨t.val * 10000 + p.val, hrow⟩ : Fin 100000) k := by
    intro k
    have hk : k.val < 64 := k.isLt
    funext a; apply Fin.ext
    match a with
    | ⟨0, _⟩ => show win0_0.index t (0 : Fin 2) * 10000 + 1 * p.val = t.val * 10000 + p.val; omega
    | ⟨1, _⟩ => show win0_0.index t (1 : Fin 2) * 64 + 1 * k.val = k.val; omega
  have eFac : ((cfg0.win 1).blk t).view.emb (ix2 p (0 : Fin 1)) = ix2 (⟨t.val * 10000 + p.val, hrow⟩ : Fin 100000) (0 : Fin 1) := by
    funext a; apply Fin.ext
    match a with
    | ⟨0, _⟩ => show win0_1.index t (0 : Fin 2) * 10000 + 1 * p.val = t.val * 10000 + p.val; omega
    | ⟨1, _⟩ => show win0_1.index t (1 : Fin 2) * 1 + 1 * 0 = 0; omega
  have eW : ∀ k : Fin 64, ((cfg0.win 2).blk t).view.emb (ix2 k q) = ix2 k q := by
    intro k
    have hk : k.val < 64 := k.isLt
    funext a; apply Fin.ext
    match a with
    | ⟨0, _⟩ => show win0_2.index t (0 : Fin 2) * 64 + 1 * k.val = k.val; omega
    | ⟨1, _⟩ => show win0_2.index t (1 : Fin 2) * 64 + 1 * q.val = q.val; omega
  have eB : ((cfg0.win 3).blk t).view.emb (ix2 (0 : Fin 1) q) = ix2 (0 : Fin 1) q := by
    funext a; apply Fin.ext
    match a with
    | ⟨0, _⟩ => show win0_3.index t (0 : Fin 2) * 1 + 1 * 0 = 0; omega
    | ⟨1, _⟩ => show win0_3.index t (1 : Fin 2) * 64 + 1 * q.val = q.val; omega
  refine (Block.hidden_at (iblk0 V c 0 t) (iblk0 V c 1 t) (iblk0 V c 2 t) (iblk0 V c 3 t) p q).trans ?_
  show _ = affineRelu (agg V c) (factor V c) (weight V c) (bias V c) (((cfg0.win 4).blk t).view.emb (ix2 p q))
  rw [eOut, affineRelu_apply]
  refine congrArg (max · (Ideal.ofBits .f32 0x00000000#32)) ?_
  exact affineAt_congr (iblk0 V c 0 t) (iblk0 V c 1 t) (iblk0 V c 2 t) (iblk0 V c 3 t)
    (agg V c) (factor V c) (weight V c) (bias V c) p ⟨t.val * 10000 + p.val, hrow⟩ q
    (fun k => congrArg (agg V c) (eAgg k)) (congrArg (factor V c) eFac)
    (fun k => congrArg (weight V c) (eW k)) (congrArg (bias V c) eB)

/-- An index of the result array is in step `t`'s block iff each coordinate is in the block's range on its axis. -/
theorem mem_block (t : Fin cfg0.N) (i : S100000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v31).slice (win0_4.rect t)).set ↔ _
  rw [View.set_slice_whole, Rect.mem_set_unit]
  exact Iff.rfl

/-- The ten row blocks tile the result: row `r` is in the block of step `r / 10000`. -/
theorem tiled (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hN : grid0.N = 10 := N_0
  refine ⟨⟨(i 0).val / 10000, by show (i 0).val / 10000 < grid0.N; omega⟩, flush0_4 _, ?_⟩
  rw [mem_block]
  obtain ⟨-, -, -, -, -, -, -, -, e40, e41⟩ := block_index ⟨(i 0).val / 10000, by show (i 0).val / 10000 < grid0.N; omega⟩
  intro a
  match a with
  | ⟨0, _⟩ =>
    show win0_4.index _ (0 : Fin 2) * 10000 ≤ (i 0).val ∧ (i 0).val < win0_4.index _ (0 : Fin 2) * 10000 + 10000
    rw [e40]; show (i 0).val / 10000 * 10000 ≤ (i 0).val ∧ (i 0).val < (i 0).val / 10000 * 10000 + 10000; omega
  | ⟨1, _⟩ =>
    show win0_4.index _ (1 : Fin 2) * 64 ≤ (i 1).val ∧ (i 1).val < win0_4.index _ (1 : Fin 2) * 64 + 64
    rw [e41]; omega

/-- THE HIDDEN LAYER'S ARRAY after the kernel: the layer of the arrays the kernel was entered with. -/
theorem final (c : Dev nD) :
    (dat0 V c).arrAt 4 cfg0.N = affineRelu (agg V c) (factor V c) (weight V c) (bias V c) :=
  (dat0 V c).arrAt_eq_of_cover 4 _ (fun t _ => flushed_eq V c t) (tiled)

end Cert.Gcn.Hidden

end
-- ==== Proof.OutArray.lean ====
/-
  The output layer's whole array after its kernel has run over the ten row blocks.

  As for the hidden layer, step `t` of the ten reads rows `10000·t … 10000·t + 9999` of the second aggregate and of
  the factor column, the whole 64 × 32 weight matrix and the bias row, and writes back the same rows of the 100000 × 32
  result: block `t` of the layer's affine map of the arrays the kernel was entered with (no activation follows), and
  the ten blocks tile the rows. Stated for any contents `V` of the buffers at the kernel's entry.
-/
import proofs.«160539_j33784212750626_1_alg».proof.Proof.Gen.KernelIdeal.Frame
import proofs.«160539_j33784212750626_1_alg».proof.Proof.BlockLayer

set_option maxRecDepth 16384

noncomputable section

open scoped BigOperators

namespace Cert.Gcn.Out

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The arrays the kernel is entered with, at their literal shapes. -/
abbrev agg (c : Dev nD) : FVec Ideal S100000x64 .f32 := V c main_v44
abbrev factor (c : Dev nD) : FVec Ideal S100000x1 .f32 := V c main_v45
abbrev weight (c : Dev nD) : FVec Ideal S64x32 .f32 := V c main_arg5
abbrev bias (c : Dev nD) : FVec Ideal S1x32 .f32 := V c main_v46

theorem origin : (![0, 0] : Fin 2 → Nat) = fun _ => 0 := funext fun a => by fin_cases a <;> rfl

/-- The block each window is at, step by step: the row-blocked windows at block row `t`, the weights and the bias
    always at their one block. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT STEP `t` WRITES BACK is block `t` of the output layer of the entry arrays. -/
theorem flushed_eq (c : Dev nD) (t : Fin cfg1.N) :
    (dat1 V c).flushed 4 t = ((cfg1.win 4).blk t).view.read (Elt Ideal)
      (affine (agg V c) (factor V c) (weight V c) (bias V c)) := by
  show (cfg1.win 4).cut (grid1.coords t) ((dat1 V c).after 4 t) = _
  rw [after1_4]
  unfold out1_4
  rw [View.canon_unit_zero origin]
  simp only [View.ld_unit_zero (S := S10000x64) origin, View.ld_unit_zero (S := S10000x1) origin,
    View.ld_unit_zero (S := S64x32) origin, View.ld_unit_zero (S := S1x32) origin]
  obtain ⟨e00, e01, e10, e11, e20, e21, e30, e31, e40, e41⟩ := block_index t
  have hN : t.val < 10 := lt_of_lt_of_eq t.isLt N_1
  funext j
  obtain ⟨p, q, rfl⟩ : ∃ (p : Fin 10000) (q : Fin 32), j = ix2 p q := ⟨j 0, j 1, eq_ix2 j⟩
  have hp : p.val < 10000 := p.isLt
  have hq : q.val < 32 := q.isLt
  have hrow : t.val * 10000 + p.val < 100000 := by omega
  -- row `p` of block `t` is row `10000·t + p` of the arrays
  have eOut : ((cfg1.win 4).blk t).view.emb (ix2 p q) = ix2 (⟨t.val * 10000 + p.val, hrow⟩ : Fin 100000) q := by
    funext a; apply Fin.ext
    match a with
    | ⟨0, _⟩ => show win1_4.index t (0 : Fin 2) * 10000 + 1 * p.val = t.val * 10000 + p.val; omega
    | ⟨1, _⟩ => show win1_4.index t (1 : Fin 2) * 32 + 1 * q.val = q.val; omega
  have eAgg : ∀ k : Fin 64, ((cfg1.win 0).blk t).view.emb (ix2 p k) = ix2 (⟨t.val * 10000 + p.val, hrow⟩ : Fin 100000) k := by
    intro k
    have hk : k.val < 64 := k.isLt
    funext a; apply Fin.ext
    match a with
    | ⟨0, _⟩ => show win1_0.index t (0 : Fin 2) * 10000 + 1 * p.val = t.val * 10000 + p.val; omega
    | ⟨1, _⟩ => show win1_0.index t (1 : Fin 2) * 64 + 1 * k.val = k.val; omega
  have eFac : ((cfg1.win 1).blk t).view.emb (ix2 p (0 : Fin 1)) = ix2 (⟨t.val * 10000 + p.val, hrow⟩ : Fin 100000) (0 : Fin 1) := by
    funext a; apply Fin.ext
    match a with
    | ⟨0, _⟩ => show win1_1.index t (0 : Fin 2) * 10000 + 1 * p.val = t.val * 10000 + p.val; omega
    | ⟨1, _⟩ => show win1_1.index t (1 : Fin 2) * 1 + 1 * 0 = 0; omega
  have eW : ∀ k : Fin 64, ((cfg1.win 2).blk t).view.emb (ix2 k q) = ix2 k q := by
    intro k
    have hk : k.val < 64 := k.isLt
    funext a; apply Fin.ext
    match a with
    | ⟨0, _⟩ => show win1_2.index t (0 : Fin 2) * 64 + 1 * k.val = k.val; omega
    | ⟨1, _⟩ => show win1_2.index t (1 : Fin 2) * 32 + 1 * q.val = q.val; omega
  have eB : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 32 + 1 * q.val = q.val; omega
  refine (Block.out_at (iblk1 V c 0 t) (iblk1 V c 1 t) (iblk1 V c 2 t) (iblk1 V c 3 t) p q).trans ?_
  show _ = affine (agg V c) (factor V c) (weight V c) (bias V c) (((cfg1.win 4).blk t).view.emb (ix2 p q))
  rw [eOut, affine_apply]
  exact affineAt_congr (iblk1 V c 0 t) (iblk1 V c 1 t) (iblk1 V c 2 t) (iblk1 V c 3 t)
    (agg V c) (factor V c) (weight V c) (bias V c) p ⟨t.val * 10000 + p.val, hrow⟩ q
    (fun k => congrArg (agg V c) (eAgg k)) (congrArg (factor V c) eFac)
    (fun k => congrArg (weight V c) (eW k)) (congrArg (bias V c) eB)

/-- An index of the result array is in step `t`'s block iff each coordinate is in the block's range on its axis. -/
theorem mem_block (t : Fin cfg1.N) (i : S100000x32.Idx) :
    i ∈ ((cfg1.win 4).blk t).view.set ↔ ∀ a : Fin 2, win1_4.index t a * S10000x32.size a ≤ (i a).val ∧ (i a).val < win1_4.index t a * S10000x32.size a + S10000x32.size a := by
  show i ∈ ((View.whole main_v47).slice (win1_4.rect t)).set ↔ _
  rw [View.set_slice_whole, Rect.mem_set_unit]
  exact Iff.rfl

/-- The ten row blocks tile the result: row `r` is in the block of step `r / 10000`. -/
theorem tiled (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  have hN : grid1.N = 10 := N_1
  refine ⟨⟨(i 0).val / 10000, by show (i 0).val / 10000 < grid1.N; omega⟩, flush1_4 _, ?_⟩
  rw [mem_block]
  obtain ⟨-, -, -, -, -, -, -, -, e40, e41⟩ := block_index ⟨(i 0).val / 10000, by show (i 0).val / 10000 < grid1.N; omega⟩
  intro a
  match a with
  | ⟨0, _⟩ =>
    show win1_4.index _ (0 : Fin 2) * 10000 ≤ (i 0).val ∧ (i 0).val < win1_4.index _ (0 : Fin 2) * 10000 + 10000
    rw [e40]; show (i 0).val / 10000 * 10000 ≤ (i 0).val ∧ (i 0).val < (i 0).val / 10000 * 10000 + 10000; omega
  | ⟨1, _⟩ =>
    show win1_4.index _ (1 : Fin 2) * 32 ≤ (i 1).val ∧ (i 1).val < win1_4.index _ (1 : Fin 2) * 32 + 32
    rw [e41]; omega

/-- THE OUTPUT LAYER'S ARRAY after the kernel: the layer of the arrays the kernel was entered with. -/
theorem final (c : Dev nD) :
    (dat1 V c).arrAt 4 cfg1.N = affine (agg V c) (factor V c) (weight V c) (bias V c) :=
  (dat1 V c).arrAt_eq_of_cover 4 _ (fun t _ => flushed_eq V c t) (tiled)

end Cert.Gcn.Out

end
-- ==== Proof.Network.lean ====
/-
  The whole computation as one function of the seven arguments.

  Two graph-convolution layers: the features are aggregated over the self-looped graph and passed through the hidden
  layer (affine map, maximum with zero); the hidden array is aggregated over the same graph and passed through the
  output layer (affine map). Both layers scale by the destination-side degree factors, read as a column, and add
  their bias, read as a row. Both programs are shown to end with their result array at this function of their arguments.
-/
import proofs.«160539_j33784212750626_1_alg».proof.Proof.Layer
import proofs.«160539_j33784212750626_1_alg».proof.Proof.HostTerms

noncomputable section

namespace Cert.Gcn

open Idealize.ShloMosaic Cert.KernelIdeal

/-- The hidden layer's array: the layer of the first aggregate. -/
def hiddenArray (x0 : (⟨S100000x64, .f32⟩ : BufTy).Contents (Elt Ideal)) (x1 x2 : (⟨S1600000, .i32⟩ : BufTy).Contents (Elt Ideal)) (x3 : (⟨S64x64, .f32⟩ : BufTy).Contents (Elt Ideal))
    (x4 : (⟨S64, .f32⟩ : BufTy).Contents (Elt Ideal)) : (⟨S100000x64, .f32⟩ : BufTy).Contents (Elt Ideal) :=
  affineRelu (aggregate x0 x1 x2) (factorColumn x2) x3 (hiddenBias x4)

/-- The result: the output layer of the aggregate of the hidden layer's array. -/
def network (x0 : (⟨S100000x64, .f32⟩ : BufTy).Contents (Elt Ideal)) (x1 x2 : (⟨S1600000, .i32⟩ : BufTy).Contents (Elt Ideal)) (x3 : (⟨S64x64, .f32⟩ : BufTy).Contents (Elt Ideal))
    (x4 : (⟨S64, .f32⟩ : BufTy).Contents (Elt Ideal)) (x5 : (⟨S64x32, .f32⟩ : BufTy).Contents (Elt Ideal)) (x6 : (⟨S32, .f32⟩ : BufTy).Contents (Elt Ideal)) : (⟨S100000x32, .f32⟩ : BufTy).Contents (Elt Ideal) :=
  affine (aggregate (hiddenArray x0 x1 x2 x3 x4) x1 x2) (factorColumn x2) x5 (outBias x6)

end Cert.Gcn

end
-- ==== Proof.KernelEntry1.lean ====
/-
  From the first kernel's exit to the program's result.

  At the first kernel's exit its output array holds the hidden layer of the arrays it was entered with, and every
  buffer that is not one of its arrays is as it was entered. The host operations between the kernels scale that
  array by the source factors, gather and scatter-add it — the second aggregate — and lay out the factor column and
  the second bias row again. The second kernel's output array, the program's result, is then the output layer of
  those: the whole two-layer function of the program's arguments.
-/
import proofs.«160539_j33784212750626_1_alg».proof.Proof.KernelEntry0
import proofs.«160539_j33784212750626_1_alg».proof.Proof.HiddenArray
import proofs.«160539_j33784212750626_1_alg».proof.Proof.OutArray
import proofs.«160539_j33784212750626_1_alg».proof.Proof.Network

set_option maxRecDepth 16384
-- walking a stretch of twenty operations back, one rewrite per operation and buffer, needs more than the default budget
set_option maxHeartbeats 4000000

noncomputable section

namespace Cert.Gcn.Entry1

open Idealize.ShloMosaic Idealize.ShloMosaic.TcCoe Idealize.ShloMosaic.StableHlo Idealize.SL.Sem
open Cert.KernelIdeal Cert.KernelIdeal.Gen

/-! ## The host operations between the kernels, at any float instance -/

section Between

variable {F : FTy → Type} [FloatOps F]
variable (m : (ℓ : Loc nD τ sig) → Buf (Elt F) ℓ) (ρ : Dev nD → PrngReg)

/-- The second aggregate: of whatever the first kernel left in its output array. -/
theorem between_agg (c : Dev nD) (H : (⟨S100000x64, .f32⟩ : BufTy).Contents (Elt F)) (hH : W6 m ρ c (Proc.devRef .tc main_v31) = H) :
    W7 m ρ c (Proc.devRef .tc main_v44) = aggregate H (m ((c : Thread nD τ).loc main_arg1)) (m ((c : Thread nD τ).loc main_arg2)) := by
  have h0 : W6 m ρ c (Proc.devRef .tc main_v31) = H := hH
  have h1 : W6 m ρ c (Proc.devRef .tc main_v12) = degFactor (m ((c : Thread nD τ).loc main_arg1)) := (W6_of_ne m ρ c main_v12 (by decide)).trans (Entry0.entry_srcFactor m ρ c)
  have h2 : W6 m ρ c (Proc.devRef .tc main_v1) = withLoops (m ((c : Thread nD τ).loc main_arg1)) := (W6_of_ne m ρ c main_v1 (by decide)).trans (Entry0.entry_src m ρ c)
  have h3 : W6 m ρ c (Proc.devRef .tc main_v2) = withLoops (m ((c : Thread nD τ).loc main_arg2)) := (W6_of_ne m ρ c main_v2 (by decide)).trans (Entry0.entry_dst m ρ c)
  show StableHlo.after hostOps1 (W6 m ρ c) (Proc.devRef .tc main_v44) = _
  generalize W6 m ρ c = X at h0 h1 h2 h3 ⊢
  after_results
  rw [h0, h1, h2, h3]
  show _ = aggregateOf H (degFactor (m ((c : Thread nD τ).loc main_arg1))) (withLoops (m ((c : Thread nD τ).loc main_arg1))) (withLoops (m ((c : Thread nD τ).loc main_arg2)))
  generalize degFactor (m ((c : Thread nD τ).loc main_arg1)) = g0
  generalize withLoops (m ((c : Thread nD τ).loc main_arg1)) = g1
  generalize withLoops (m ((c : Thread nD τ).loc main_arg2)) = g2
  first | done | rfl

/-- The destination factors as a column, again. -/
theorem between_factor (c : Dev nD) : W7 m ρ c (Proc.devRef .tc main_v45) = factorColumn (m ((c : Thread nD τ).loc main_arg2)) := by
  have h0 : W6 m ρ c (Proc.devRef .tc main_v15) = degFactor (m ((c : Thread nD τ).loc main_arg2)) := (W6_of_ne m ρ c main_v15 (by decide)).trans (Entry0.entry_dstFactor m ρ c)
  show StableHlo.after hostOps1 (W6 m ρ c) (Proc.devRef .tc main_v45) = _
  generalize W6 m ρ c = X at h0 ⊢
  after_results
  rw [h0]
  show _ = columnOf (degFactor (m ((c : Thread nD τ).loc main_arg2)))
  generalize degFactor (m ((c : Thread nD τ).loc main_arg2)) = g0
  first | done | rfl

/-- The second bias as a row. -/
theorem between_bias (c : Dev nD) : W7 m ρ c (Proc.devRef .tc main_v46) = outBias (m ((c : Thread nD τ).loc main_arg6)) := by
  have h0 : W6 m ρ c (Proc.devRef .tc main_arg6) = (m ((c : Thread nD τ).loc main_arg6)) := (W6_of_ne m ρ c main_arg6 (by decide)).trans (Entry0.entry_b2 m ρ c)
  show StableHlo.after hostOps1 (W6 m ρ c) (Proc.devRef .tc main_v46) = _
  generalize W6 m ρ c = X at h0 ⊢
  after_results
  rw [h0]
  generalize (m ((c : Thread nD τ).loc main_arg6)) = g0
  first | done | rfl

/-- The second weight matrix is as launched. -/
theorem between_w2 (c : Dev nD) : W7 m ρ c (Proc.devRef .tc main_arg5) = (m ((c : Thread nD τ).loc main_arg5)) := by
  have h0 : W6 m ρ c (Proc.devRef .tc main_arg5) = (m ((c : Thread nD τ).loc main_arg5)) := (W6_of_ne m ρ c main_arg5 (by decide)).trans (Entry0.entry_w2 m ρ c)
  show StableHlo.after hostOps1 (W6 m ρ c) (Proc.devRef .tc main_arg5) = _
  generalize W6 m ρ c = X at h0 ⊢
  after_results
  rw [h0]
  first | done | rfl

end Between

/-! ## On the extended reals -/

variable (m : (ℓ : Loc nD τ sig) → Buf (Elt Ideal) ℓ) (ρ : Dev nD → PrngReg)

/-- At the first kernel's exit its output array is the hidden layer's array of the arguments. -/
theorem exit0_hidden (c : Dev nD) :
    W6 m ρ c (Proc.devRef .tc main_v31) = hiddenArray (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 4).trans ?_
  rw [Hidden.final (V5 m ρ) c]
  show affineRelu (W5 m ρ c (Proc.devRef .tc main_v28)) (W5 m ρ c (Proc.devRef .tc main_v29)) (W5 m ρ c (Proc.devRef .tc main_arg3))
    (W5 m ρ c (Proc.devRef .tc main_v30)) = _
  rw [Entry0.entry_agg, Entry0.entry_factor, Entry0.entry_w1, Entry0.entry_bias]
  rfl

/-- THE PROGRAM'S RESULT at the run's last boundary: the two-layer function of its arguments. -/
theorem result (c : Dev nD) :
    W8 m ρ c (Proc.devRef .tc main_v47) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 4).trans ?_
  rw [Out.final (V7 m ρ) c]
  show affine (W7 m ρ c (Proc.devRef .tc main_v44)) (W7 m ρ c (Proc.devRef .tc main_v45)) (W7 m ρ c (Proc.devRef .tc main_arg5))
    (W7 m ρ c (Proc.devRef .tc main_v46)) = _
  rw [between_agg m ρ c _ (exit0_hidden m ρ c), between_factor, between_w2, between_bias]
  rfl

end Cert.Gcn.Entry1

end
-- ==== Proof.RefHost.lean ====
/-
  The reference's host stages are the shared host functions.

  The reference computes the self-looped endpoint lists, the degree factors and the two aggregates with the same host
  operations, on the same arrays, as the kernel's program: each of its stages is the shared function of the same
  name, by unfolding both.
-/
import proofs.«160539_j33784212750626_1_alg».proof.Proof.Gen.ReferenceIdeal.Read
import proofs.«160539_j33784212750626_1_alg».proof.Proof.HostTerms
import Idealize.ShloMosaic.PureOps.Ideal

noncomputable section

open scoped BigOperators

namespace Cert.Gcn.Ref

open Idealize.ShloMosaic Idealize.ShloMosaic.TcCoe Idealize.ShloMosaic.ValueIdx Idealize.SL.Sem
open Cert.ReferenceIdeal Cert.ReferenceIdeal.Read

/-! ## The shared host functions -/

/-- The destination-side factors. -/
theorem dstFactor_eq (x2 : (⟨S1600000, .i32⟩ : BufTy).Contents (Elt Ideal)) : val_main_v15 (F := Ideal) x2 = degFactor x2 := rfl

/-- The first aggregate: of the features. -/
theorem agg1_eq (x0 : (⟨S100000x64, .f32⟩ : BufTy).Contents (Elt Ideal)) (x1 x2 : (⟨S1600000, .i32⟩ : BufTy).Contents (Elt Ideal)) :
    val_main_v28 (F := Ideal) x0 x1 x2 = aggregate x0 x1 x2 := rfl

/-- The second aggregate: of the hidden layer's array. -/
theorem agg2_eq (x0 : (⟨S100000x64, .f32⟩ : BufTy).Contents (Elt Ideal)) (x1 x2 : (⟨S1600000, .i32⟩ : BufTy).Contents (Elt Ideal)) (x3 : (⟨S64x64, .f32⟩ : BufTy).Contents (Elt Ideal)) (x4 : (⟨S64, .f32⟩ : BufTy).Contents (Elt Ideal)) :
    val_main_v49 (F := Ideal) x0 x1 x2 x3 x4 = aggregate (val_main_v36 (F := Ideal) x0 x1 x2 x3 x4) x1 x2 := rfl

end Cert.Gcn.Ref

end
-- ==== Proof.RefLayers.lean ====
/-
  The reference's two dense stages, entry by entry.

  The reference does each dense stage on the host: the aggregate times the destination factors broadcast along the
  rows, a `dot_general` with the weights (at every entry the sum over the 64 contracted coordinates), plus the bias
  broadcast down the rows, and for the hidden layer the maximum with zero. Entry by entry that is the layer of
  Layer.lean, with the factors read as the column and the bias as the row the kernels use.
-/
import proofs.«160539_j33784212750626_1_alg».proof.Proof.Gen.ReferenceIdeal.Read
import proofs.«160539_j33784212750626_1_alg».proof.Proof.Layer
import proofs.«160539_j33784212750626_1_alg».proof.Proof.HostTerms
import proofs.«160539_j33784212750626_1_alg».proof.Proof.LibRowSums
import proofs.«160539_j33784212750626_1_alg».proof.Proof.LibMatrixReads

noncomputable section

open scoped BigOperators

namespace Cert.Gcn.Ref

open Idealize.ShloMosaic Idealize.ShloMosaic.TcCoe Idealize.ShloMosaic.ValueIdx Idealize.SL.Sem
open Cert.ReferenceIdeal Cert.ReferenceIdeal.Read

/-! ## The two dense stages -/

/-- The hidden layer's stage is the layer with the maximum, at every entry. -/
theorem hidden_eq (x0 : (⟨S100000x64, .f32⟩ : BufTy).Contents (Elt Ideal)) (x1 x2 : (⟨S1600000, .i32⟩ : BufTy).Contents (Elt Ideal)) (x3 : (⟨S64x64, .f32⟩ : BufTy).Contents (Elt Ideal)) (x4 : (⟨S64, .f32⟩ : BufTy).Contents (Elt Ideal)) :
    val_main_v36 (F := Ideal) x0 x1 x2 x3 x4
      = affineRelu (val_main_v28 (F := Ideal) x0 x1 x2) (columnOf (val_main_v15 (F := Ideal) x2)) x3 (hiddenBias x4) := by
  funext j
  obtain ⟨p, q, rfl⟩ : ∃ (p : Fin 100000) (q : Fin 64), j = ix2 p q := ⟨j 0, j 1, eq_ix2 j⟩
  have eL : ∀ k : Fin 64, lidx_main_v32 (ix2 p q) k = ix2 p k := fun k => funext fun a => Fin.ext (by match a with | ⟨0, _⟩ => rfl | ⟨1, _⟩ => rfl)
  have eR : ∀ k : Fin 64, ridx_main_v32 (ix2 p q) k = ix2 k q := fun k => funext fun a => Fin.ext (by match a with | ⟨0, _⟩ => rfl | ⟨1, _⟩ => rfl)
  have eN : ∀ k : Fin 64, idx_main_v29 (idx_main_v30 (ix2 p k)) = ix1 p := fun k => funext fun a => Fin.ext (by match a with | ⟨0, _⟩ => rfl)
  have eB : idx_main_v33 (idx_main_v34 (ix2 p q)) = ix1 q := funext fun a => Fin.ext (by match a with | ⟨0, _⟩ => rfl)
  rw [affineRelu_apply, val_main_v36_apply, val_main_v35_apply, val_main_v32_apply, val_main_v34_apply, val_main_v33_apply,
    val_main_call2_v0_apply, val_main_call2_cst_apply, eB]
  unfold affineAt columnOf hiddenBias
  rw [RowSums.shapeCast_a_a1_apply, MatrixReads.rowOfVec_apply]
  simp only [eL, eR]
  rw [Ideal.maximumf_def, Ideal.addf_def, Ideal.ofBits_def]
  refine congrArg (max · (Ideal.ofBits .f32 0x00000000#32)) (congrArg (· + x4 (ix1 q)) (Finset.sum_congr rfl fun k _ => ?_))
  rw [val_main_v31_apply, val_main_v30_apply, val_main_v29_apply, eN k, Ideal.mulf_def]

/-- The output layer's stage is the layer, at every entry. -/
theorem out_eq (x0 : (⟨S100000x64, .f32⟩ : BufTy).Contents (Elt Ideal)) (x1 x2 : (⟨S1600000, .i32⟩ : BufTy).Contents (Elt Ideal)) (x3 : (⟨S64x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) :
    val_main_v56 (F := Ideal) x0 x1 x2 x3 x4 x5 x6
      = affine (val_main_v49 (F := Ideal) x0 x1 x2 x3 x4) (columnOf (val_main_v15 (F := Ideal) x2)) x5 (outBias x6) := by
  funext j
  obtain ⟨p, q, rfl⟩ : ∃ (p : Fin 100000) (q : Fin 32), j = ix2 p q := ⟨j 0, j 1, eq_ix2 j⟩
  have eL : ∀ k : Fin 64, lidx_main_v53 (ix2 p q) k = ix2 p k := fun k => funext fun a => Fin.ext (by match a with | ⟨0, _⟩ => rfl | ⟨1, _⟩ => rfl)
  have eR : ∀ k : Fin 64, ridx_main_v53 (ix2 p q) k = ix2 k q := fun k => funext fun a => Fin.ext (by match a with | ⟨0, _⟩ => rfl | ⟨1, _⟩ => rfl)
  have eN : ∀ k : Fin 64, idx_main_v50 (idx_main_v51 (ix2 p k)) = ix1 p := fun k => funext fun a => Fin.ext (by match a with | ⟨0, _⟩ => rfl)
  have eB : idx_main_v54 (idx_main_v55 (ix2 p q)) = ix1 q := funext fun a => Fin.ext (by match a with | ⟨0, _⟩ => rfl)
  rw [affine_apply, val_main_v56_apply, val_main_v53_apply, val_main_v55_apply, val_main_v54_apply, eB]
  unfold affineAt columnOf outBias
  rw [RowSums.shapeCast_a_a1_apply, MatrixReads.rowOfVec_apply]
  simp only [eL, eR]
  rw [Ideal.addf_def]
  refine congrArg (· + x6 (ix1 q)) (Finset.sum_congr rfl fun k _ => ?_)
  rw [val_main_v52_apply, val_main_v51_apply, val_main_v50_apply, eN k, Ideal.mulf_def]

end Cert.Gcn.Ref

end
-- ==== Proof.RefResult.lean ====
/-
  The reference's result array is the two-layer function of its arguments.

  Its last stage is the output layer of the second aggregate; that aggregate is the shared one of the hidden
  stage's array; the hidden stage is the hidden layer of the first aggregate; and the factors are the shared
  degree factors: chained, the composed term the reference's run ends at is `network` of the argument arrays.
-/
import proofs.«160539_j33784212750626_1_alg».proof.Proof.RefHost
import proofs.«160539_j33784212750626_1_alg».proof.Proof.RefLayers
import proofs.«160539_j33784212750626_1_alg».proof.Proof.Network

noncomputable section

open scoped BigOperators

namespace Cert.Gcn.Ref

open Idealize.ShloMosaic Idealize.ShloMosaic.TcCoe Idealize.ShloMosaic.ValueIdx Idealize.SL.Sem
open Cert.ReferenceIdeal Cert.ReferenceIdeal.Read

/-- The reference's result array: the output layer of the second aggregate, itself of the hidden layer of the first. -/
theorem result_eq (m : (ℓ : Loc nD τ sig) → Buf (Elt Ideal) ℓ) (c : Dev nD) :
    Cert.ReferenceIdeal.Value.res_main_v56 m c
      = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [val_main_v56_eq, out_eq, agg2_eq, hidden_eq, agg1_eq, dstFactor_eq]
  unfold network hiddenArray factorColumn
  rfl

end Cert.Gcn.Ref

end
-- ==== Proof.lean ====
/-
  A two-layer graph convolution on 100000 nodes and 1600000 edges, against its plain-array reference.

  Both programs append a self-loop per node, count each node's out- and in-degree, raise the counts to at least one
  and to the power −1/2, and then twice: scale the node rows by the source factors, gather them along the edges, sum
  them into their destination rows, scale by the destination factors, multiply by a weight matrix and add a bias —
  with a maximum with zero after the first layer. The kernel's program does the last three steps of each layer in a
  kernel over ten blocks of 10000 rows (its operands narrowed to bf16, which on the extended reals is the identity,
  and multiplied into an accumulator of zeros); the reference does them with whole-array host operations.

  The proof: each kernel's output array is one function of the arrays it was entered with — the layer of
  Layer.lean, entry by entry (BlockLayer, HiddenArray, OutArray) —; the host operations around the kernels leave the
  shared host functions of the arguments in the buffers the kernels read (KernelEntry0, KernelEntry1); the reference's
  stages are the same host functions and the same layers (RefHost, RefLayers, RefResult). So both runs end with their
  result array at the same term, `network` of the arguments (Network.lean), and nothing about the extended reals
  is used beyond reading each operation at an index: the precondition is never opened.
  The idealization rewrote no operation, so `preserves` is `True`.
-/
import proofs.«160539_j33784212750626_1_alg».proof.Defs
import proofs.«160539_j33784212750626_1_alg».proof.Proof.Gen.Kernel
import proofs.«160539_j33784212750626_1_alg».proof.Proof.Gen.Kernel.Frame
import proofs.«160539_j33784212750626_1_alg».proof.Proof.Gen.KernelIdeal
import proofs.«160539_j33784212750626_1_alg».proof.Proof.Gen.KernelIdeal.Frame
import proofs.«160539_j33784212750626_1_alg».proof.Proof.Gen.ReferenceIdeal
import proofs.«160539_j33784212750626_1_alg».proof.Proof.Gen.ReferenceIdeal.Run
import proofs.«160539_j33784212750626_1_alg».proof.Proof.Gen.Pre_finite_inputs
import proofs.«160539_j33784212750626_1_alg».proof.Proof.KernelRun
import proofs.«160539_j33784212750626_1_alg».proof.Proof.KernelEntry1
import proofs.«160539_j33784212750626_1_alg».proof.Proof.RefResult
import Idealize.ShloMosaic.Adequacy
import Idealize.ShloMosaic.Init

noncomputable section

namespace Cert.Proof

open Idealize.ShloMosaic Idealize.SL.Sem Cert.Gcn

/-- The kernel's program as printed runs, and its arguments end unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals both programs, from memories agreeing on the arguments, end with their result arrays at the
    two-layer function `network` of the (kernel program's) arguments. -/
theorem algebraic : Cert.algebraic_KernelIdeal_ReferenceIdeal := by
  intro m ρ m' ρ' _ hagree
  refine ⟨fun c => network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono (fun _ h c => ⟨(h c).1.trans (Entry1.result m ρ c), (h c).2⟩)
      (Cert.KernelIdeal.Whole.run_named (F := Ideal) m ρ)
  · refine (θ_run Cert.ReferenceIdeal.defs _ _).mono (fun _ h c => ⟨(h c).1.trans ?_, (h c).2⟩)
      (Cert.ReferenceIdeal.Value.run (F := Ideal) m' ρ')
    rw [Ref.result_eq, (hagree c).1, (hagree c).2.1, (hagree c).2.2.1, (hagree c).2.2.2.1, (hagree c).2.2.2.2.1,
      (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
